-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x8 : Shape := ⟨2, ![100000, 8]⟩
abbrev S136x128 : Shape := ⟨2, ![136, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x8 : S_.BroadcastsInDim S100000x8 (![] : Fin 0 → Fin S100000x8.rank)
  reducesTo_S100000x8_S_d0_1 : S100000x8.ReducesTo [0, 1] S_
  bcast_S_S136x128 : S_.BroadcastsInDim S136x128 (![] : Fin 0 → Fin S136x128.rank)
  reducesTo_S136x128_S_d0_1 : S136x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S128x3 .f32) (main_arg6 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x3 .f32 := Host.absf main_arg5
  let main_cst_6 : FVec F S_ .f32 := constant S_ .f32 0x7F800000#32
  let main_v20 : FVec F S128x3 .f32 := broadcastInDim S128x3 ![] bcast_S_S128x3 main_cst_6
  let main_v21 : IVec S128x3 1 := cmpf .olt main_v19 main_v20
  let main_c_7 : IVec S_ 1 := constantI S_ 1 1#1
  let main_v22 : IVec S_ 1 := (fun x v => Host.reduce IntOp.andi x v reducesTo_S128x3_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S100000x8 .f32) (main_arg3 : FVec F S136x128 .f32) (main_arg4 : FVec F S128 .f32) (main_arg5 : FVec F S128x3 .f32) (main_arg6 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x8 .f32 := Host.absf main_arg2
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  let main_v9 : FVec F S136x128 .f32 := Host.absf main_arg3
  let main_cst_2 : FVec F S_ .f32 := constant S_ .f32 0x7F800000#32
  let main_v10 : FVec F S136x128 .f32 := broadcastInDim S136x128 ![] bcast_S_S136x128 main_cst_2
  let main_v11 : IVec S136x128 1 := cmpf .olt main_v9 main_v10
  let main_c_3 : IVec S_ 1 := constantI S_ 1 1#1
  let main_v12 : IVec S_ 1 := (fun x v => Host.reduce IntOp.andi x v reducesTo_S136x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S100000x8 : Shape := ⟨2, ![100000, 8]⟩
abbrev S136x128 : Shape := ⟨2, ![136, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x136 : Shape := ⟨2, ![100000, 136]⟩
abbrev S5000x136 : Shape := ⟨2, ![5000, 136]⟩
abbrev S5000x128 : Shape := ⟨2, ![5000, 128]⟩
abbrev S1700000x128 : Shape := ⟨2, ![1700000, 128]⟩
abbrev S1x128 : Shape := ⟨2, ![1, 128]⟩
abbrev S100000x3 : Shape := ⟨2, ![100000, 3]⟩
abbrev S5000x3 : Shape := ⟨2, ![5000, 3]⟩
abbrev S1700000x3 : Shape := ⟨2, ![1700000, 3]⟩
abbrev S1x3 : Shape := ⟨2, ![1, 3]⟩

abbrev nBuf : Space → Nat
  | .hbm => 86
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x8, .f32⟩
  | .hbm, ⟨3, _⟩ => ⟨S136x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x136, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x3, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x3, .f32⟩
  | .hbm, ⟨77, _⟩ => ⟨S1700000x1, .f32⟩
  | .hbm, ⟨78, _⟩ => ⟨S1700000x3, .f32⟩
  | .hbm, ⟨79, _⟩ => ⟨S1700000x3, .f32⟩
  | .hbm, ⟨80, _⟩ => ⟨S_, .f32⟩
  | .hbm, ⟨81, _⟩ => ⟨S100000x3, .f32⟩
  | .hbm, ⟨82, _⟩ => ⟨S1700000x1, .i32⟩
  | .hbm, ⟨83, _⟩ => ⟨S100000x3, .f32⟩
  | .hbm, ⟨84, _⟩ => ⟨S1x3, .f32⟩
  | .hbm, ⟨85, _⟩ => ⟨S100000x3, .f32⟩
  | .local _ .vmem, ⟨0, _⟩ => ⟨S5000x136, .f32⟩
  | .local _ .vmem, ⟨1, _⟩ => ⟨S5000x136, .f32⟩
  | .local _ .vmem, ⟨2, _⟩ => ⟨S136x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x3, .f32⟩
  | .local _ .vmem, ⟨13, _⟩ => ⟨S5000x3, .f32⟩
  | .local _ .vmem, ⟨14, _⟩ => ⟨S5000x3, .f32⟩
  | .local _ .vmem, ⟨15, _⟩ => ⟨S5000x3, .f32⟩
  | .local _ .vmem, ⟨16, _⟩ => ⟨S5000x3, .f32⟩
  | .local _ .vmem, ⟨17, _⟩ => ⟨S1x3, .f32⟩
  | .local _ .vmem, ⟨18, _⟩ => ⟨S5000x3, .f32⟩
  | .local _ .vmem, ⟨19, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S100000x128_S100000x8_S100000x136_d1 : Shape.Concatenates [S100000x128, S100000x8] S100000x136 1
  inb_S5000x136_S5000x136_0_0 : ∀ a, (![0, 0] : Fin 2 → Nat) a + S5000x136.size a ≤ S5000x136.size a
  h_S5000x136 : 0 < S5000x136.numel
  shapeCasts_S5000x136_S5000x136 : S5000x136.ShapeCasts S5000x136
  bitsLt_bf16_f32 : FTy.bits .bf16 < FTy.bits .f32
  inb_S136x128_S136x128_0_0 : ∀ a, (![0, 0] : Fin 2 → Nat) a + S136x128.size a ≤ S136x128.size a
  h_S136x128 : 0 < S136x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  shapeCasts_S3_S1x3 : S3.ShapeCasts S1x3
  shapeCasts_S5000x3_S5000x3 : S5000x3.ShapeCasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x136_S136x128_S5000x128_1_0_0_1_n_n_wf : DotDims.WF S5000x136 S136x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x3_S5000x3_1_0_0_1_n_n_wf : DotDims.WF S5000x128 S128x3 S5000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x136.size a ≤ S100000x136.size a
  hwx0_0 : ∀ i : grid0.Coords, EltTy.bits .f32 = 32 ∨ (Rect.block (s := S100000x136) S5000x136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S136x128.size a ≤ S136x128.size a
  hwx0_1 : ∀ i : grid0.Coords, EltTy.bits .f32 = 32 ∨ (Rect.block (s := S136x128) S136x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x3.size a ≤ S128x3.size a
  hwx2_1 : ∀ i : grid2.Coords, EltTy.bits .f32 = 32 ∨ (Rect.block (s := S128x3) S128x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x3.size a ≤ S100000x3.size a
  hwx2_2 : ∀ i : grid2.Coords, EltTy.bits .f32 = 32 ∨ (Rect.block (s := S100000x3) S5000x3.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x3.size a ≤ S100000x3.size a
  hwx3_0 : ∀ i : grid3.Coords, EltTy.bits .f32 = 32 ∨ (Rect.block (s := S100000x3) S5000x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3.size a ≤ S1x3.size a
  hwx3_1 : ∀ i : grid3.Coords, EltTy.bits .f32 = 32 ∨ (Rect.block (s := S1x3) S1x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x3.size a ≤ S100000x3.size a
  hwx3_2 : ∀ i : grid3.Coords, EltTy.bits .f32 = 32 ∨ (Rect.block (s := S100000x3) S5000x3.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x136_S136x128_S5000x128_1_0_0_1_n_n : DotDims S5000x136 S136x128 S5000x128 where
  lhsContracting := [1]
  rhsContracting := [0]
  lhsNonContracting := [0]
  rhsNonContracting := [1]
  lhsBatch := []
  rhsBatch := []
  wf := dot_S5000x136_S136x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_v30) S5000x136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S136x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x3.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x8 : Shape := ⟨2, ![100000, 8]⟩
abbrev S136x128 : Shape := ⟨2, ![136, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x136 : Shape := ⟨2, ![100000, 136]⟩
abbrev S1700000x128 : Shape := ⟨2, ![1700000, 128]⟩
abbrev S1x128 : Shape := ⟨2, ![1, 128]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x8, .f32⟩
  | .hbm, ⟨3, _⟩ => ⟨S136x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x136, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x3, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x3, .f32⟩
  | .hbm, ⟨81, _⟩ => ⟨S1700000x1, .f32⟩
  | .hbm, ⟨82, _⟩ => ⟨S1700000x3, .f32⟩
  | .hbm, ⟨83, _⟩ => ⟨S1700000x3, .f32⟩
  | .hbm, ⟨84, _⟩ => ⟨S_, .f32⟩
  | .hbm, ⟨85, _⟩ => ⟨S100000x3, .f32⟩
  | .hbm, ⟨86, _⟩ => ⟨S1700000x1, .i32⟩
  | .hbm, ⟨87, _⟩ => ⟨S100000x3, .f32⟩
  | .hbm, ⟨88, _⟩ => ⟨S1x3, .f32⟩
  | .hbm, ⟨89, _⟩ => ⟨S100000x3, .f32⟩
  | .hbm, ⟨90, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S100000x128_S100000x8_S100000x136_d1 : Shape.Concatenates [S100000x128, S100000x8] S100000x136 1
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x136_S136x128_S100000x128_1_0_0_1_n_n_wf : DotDims.WF S100000x136 S136x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x3_S100000x3_1_0_0_1_n_n_wf : DotDims.WF S100000x128 S128x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x136_S136x128_S100000x128_1_0_0_1_n_n : DotDims S100000x136 S136x128 S100000x128 where
  lhsContracting := [1]
  rhsContracting := [0]
  lhsNonContracting := [0]
  rhsNonContracting := [1]
  lhsBatch := []
  rhsBatch := []
  wf := dot_S100000x136_S136x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.Chains.lean ====
/-
  One graph-convolution layer's neighbourhood sum as a function of the projected features.

  Every message reads its source node's row of the projected features (a negative node number counts from the end),
  scales it by the message's weight, and the messages are summed at their target nodes. The reference computes this
  once on 128 columns and once on 3; here the chain of host operations is named as one function of the projected
  features and of the edge list, so that a program that computes the same projected features is seen to compute the
  same sum without opening the chain.
-/
import proofs.«134841_j61306363183554_1_alg».proof.Proof.RefRead

noncomputable section

namespace Cert.ReferenceIdeal.Chains

open Cert.ReferenceIdeal Cert.ReferenceIdeal.ReadP Idealize.ShloMosaic

variable {F : FTy → Type} [FloatOps F]

/-- The first layer's neighbourhood sum of the projected features `P`, on 128 columns. -/
def neighbourSum128 (P : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1700000x1_S1700000x128_1_0_0_1 (val_main_v42 (F := F)) (val_main_v43 (F := F) x1)
    (mulf (Host.gather gather_S100000x128_S1700000x1_S1700000x128_1_0_n_n_0_1_1128 P (val_main_v37 (F := F) x1)) (val_main_v40 (F := F) x1))

/-- The reference's first neighbourhood-sum stage is that function of its product stage. -/
theorem stage_sum128 (x0 : (⟨S100000x128, .f32⟩ : BufTy).Contents (Elt F)) (x1 : (⟨S2x1600000, .i32⟩ : BufTy).Contents (Elt F))
    (x2 : (⟨S100000x8, .f32⟩ : BufTy).Contents (Elt F)) (x3 : (⟨S136x128, .f32⟩ : BufTy).Contents (Elt F)) :
    val_main_v44 (F := F) x0 x1 x2 x3 = neighbourSum128 (val_main_v31 (F := F) x0 x2 x3) x1 := by
  unfold val_main_v44 val_main_v41 val_main_v38 neighbourSum128
  rfl

/-- The second layer's neighbourhood sum of the projected features `P`, on 3 columns. -/
def neighbourSum3 (P : (⟨S100000x3, .f32⟩ : BufTy).Contents (Elt F)) (x1 : (⟨S2x1600000, .i32⟩ : BufTy).Contents (Elt F)) :
    (⟨S100000x3, .f32⟩ : BufTy).Contents (Elt F) :=
  Host.scatterAdd scatter_S100000x3_S1700000x1_S1700000x3_1_0_0_1 (val_main_v60 (F := F)) (val_main_v61 (F := F) x1)
    (mulf (Host.gather gather_S100000x3_S1700000x1_S1700000x3_1_0_n_n_0_1_13 P (val_main_v55 (F := F) x1)) (val_main_v58 (F := F) x1))

/-- The reference's second neighbourhood-sum stage is that function of its second product stage. -/
theorem stage_sum3 (x0 : (⟨S100000x128, .f32⟩ : BufTy).Contents (Elt F)) (x1 : (⟨S2x1600000, .i32⟩ : BufTy).Contents (Elt F))
    (x2 : (⟨S100000x8, .f32⟩ : BufTy).Contents (Elt F)) (x3 : (⟨S136x128, .f32⟩ : BufTy).Contents (Elt F))
    (x4 : (⟨S128, .f32⟩ : BufTy).Contents (Elt F)) (x5 : (⟨S128x3, .f32⟩ : BufTy).Contents (Elt F)) :
    val_main_v62 (F := F) x0 x1 x2 x3 x4 x5 = neighbourSum3 (val_main_v49 (F := F) x0 x1 x2 x3 x4 x5) x1 := by
  unfold val_main_v62 val_main_v59 val_main_v56 neighbourSum3
  rfl

end Cert.ReferenceIdeal.Chains

end
-- ==== Proof.HostSide.lean ====
/-
  The host operations of the idealized kernel program, stretch by stretch.

  Between its launches the program computes, with the same operations as the reference: every message's source and
  target node (the edge list's two rows with the self loops appended), each node's inverse square-root degree where
  the node receives a message and zero elsewhere, every message's weight, the joined features, and, from a launch's
  projected features, the neighbourhood sum. Each stretch is read here from arbitrary contents of the buffers before
  it, at the buffers a later stretch or launch reads; nothing is said about floats beyond the operations themselves,
  so the statements hold at every instance.
-/
import proofs.«134841_j61306363183554_1_alg».proof.Proof.Gen.KernelIdeal.Frame
import proofs.«134841_j61306363183554_1_alg».proof.Proof.RefRead
import proofs.«134841_j61306363183554_1_alg».proof.Proof.Chains
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (U : Valuation τ sig (Elt F))

/-! Each stretch of host operations, read at the buffers a later stretch or launch uses, from ANY contents `U` of the
    buffers before it: what it writes as the reference's stage of what it reads, and what it leaves alone. -/

/-! ## The first stretch: the messages' end nodes, and each node's number of incoming messages -/

/-- Every message's source node: the edge list's first row with the self loops appended. -/
theorem first_sources : StableHlo.after hostOps0 U (Proc.devRef .tc main_v5) = Cert.ReferenceIdeal.ReadP.val_main_v5 (F := F) (U (Proc.devRef .tc main_arg1)) := by
  after_results
  rfl
/-- Every message's target node: the edge list's second row with the self loops appended. -/
theorem first_targets : StableHlo.after hostOps0 U (Proc.devRef .tc main_v6) = Cert.ReferenceIdeal.ReadP.val_main_v6 (F := F) (U (Proc.devRef .tc main_arg1)) := by
  after_results
  rfl
/-- Which nodes receive a message at all. -/
theorem first_positive : StableHlo.after hostOps0 U (Proc.devRef .tc main_v12) = Cert.ReferenceIdeal.ReadP.val_main_v12 (F := F) (U (Proc.devRef .tc main_arg1)) := by
  after_results
  rfl
/-- The inverse square root of each node's number of incoming messages. -/
theorem first_rsqrt : StableHlo.after hostOps0 U (Proc.devRef .tc main_v13) = Cert.ReferenceIdeal.ReadP.val_main_v13 (F := F) (U (Proc.devRef .tc main_arg1)) := by
  after_results
  rfl
theorem first_zero : StableHlo.after hostOps0 U (Proc.devRef .tc main_cst_2) = Cert.ReferenceIdeal.ReadP.val_main_cst_2 (F := F) := by
  after_results
  rfl
theorem first_arg0 : StableHlo.after hostOps0 U (Proc.devRef .tc main_arg0) = U (Proc.devRef .tc main_arg0) := by
  after_results
theorem first_arg1 : StableHlo.after hostOps0 U (Proc.devRef .tc main_arg1) = U (Proc.devRef .tc main_arg1) := by
  after_results
theorem first_arg2 : StableHlo.after hostOps0 U (Proc.devRef .tc main_arg2) = U (Proc.devRef .tc main_arg2) := by
  after_results
theorem first_arg3 : StableHlo.after hostOps0 U (Proc.devRef .tc main_arg3) = U (Proc.devRef .tc main_arg3) := by
  after_results
theorem first_arg4 : StableHlo.after hostOps0 U (Proc.devRef .tc main_arg4) = U (Proc.devRef .tc main_arg4) := by
  after_results
theorem first_arg5 : StableHlo.after hostOps0 U (Proc.devRef .tc main_arg5) = U (Proc.devRef .tc main_arg5) := by
  after_results
theorem first_arg6 : StableHlo.after hostOps0 U (Proc.devRef .tc main_arg6) = U (Proc.devRef .tc main_arg6) := by
  after_results

/-! ## The second stretch: the inverse square root where a node receives messages, zero elsewhere -/

theorem second_dinv (x1 : (⟨Cert.ReferenceIdeal.S2x1600000, .i32⟩ : BufTy).Contents (Elt F)) (h12 : U (Proc.devRef .tc main_v12) = Cert.ReferenceIdeal.ReadP.val_main_v12 (F := F) x1)
    (h13 : U (Proc.devRef .tc main_v13) = Cert.ReferenceIdeal.ReadP.val_main_v13 (F := F) x1) (hz : U (Proc.devRef .tc main_cst_2) = Cert.ReferenceIdeal.ReadP.val_main_cst_2 (F := F)) :
    StableHlo.after hostOps0_1 U (Proc.devRef .tc main_v14) = Cert.ReferenceIdeal.ReadP.val_main_v14 (F := F) x1 := by
  after_results
  simp only [TRef.ofBuf, TRef.toBuf, cast_eq]
  rw [h12, h13, hz]
  rfl
theorem second_sources : StableHlo.after hostOps0_1 U (Proc.devRef .tc main_v5) = U (Proc.devRef .tc main_v5) := by
  after_results
theorem second_targets : StableHlo.after hostOps0_1 U (Proc.devRef .tc main_v6) = U (Proc.devRef .tc main_v6) := by
  after_results
theorem second_arg0 : StableHlo.after hostOps0_1 U (Proc.devRef .tc main_arg0) = U (Proc.devRef .tc main_arg0) := by
  after_results
theorem second_arg2 : StableHlo.after hostOps0_1 U (Proc.devRef .tc main_arg2) = U (Proc.devRef .tc main_arg2) := by
  after_results
theorem second_arg3 : StableHlo.after hostOps0_1 U (Proc.devRef .tc main_arg3) = U (Proc.devRef .tc main_arg3) := by
  after_results
theorem second_arg4 : StableHlo.after hostOps0_1 U (Proc.devRef .tc main_arg4) = U (Proc.devRef .tc main_arg4) := by
  after_results
theorem second_arg5 : StableHlo.after hostOps0_1 U (Proc.devRef .tc main_arg5) = U (Proc.devRef .tc main_arg5) := by
  after_results
theorem second_arg6 : StableHlo.after hostOps0_1 U (Proc.devRef .tc main_arg6) = U (Proc.devRef .tc main_arg6) := by
  after_results

/-! ## The third stretch: each message's weight, and the joined features -/

set_option maxHeartbeats 4000000 in
/-- Every message's weight: the product of the two end nodes' inverse square-root degrees. -/
theorem third_weights (x1 : (⟨Cert.ReferenceIdeal.S2x1600000, .i32⟩ : BufTy).Contents (Elt F)) (h14 : U (Proc.devRef .tc main_v14) = Cert.ReferenceIdeal.ReadP.val_main_v14 (F := F) x1)
    (h5 : U (Proc.devRef .tc main_v5) = Cert.ReferenceIdeal.ReadP.val_main_v5 (F := F) x1) (h6 : U (Proc.devRef .tc main_v6) = Cert.ReferenceIdeal.ReadP.val_main_v6 (F := F) x1) :
    StableHlo.after hostOps0_2 U (Proc.devRef .tc main_v29) = Cert.ReferenceIdeal.ReadP.val_main_v29 (F := F) x1 := by
  after_results
  rw [h14, h5, h6]
  rfl
/-- The joined node features. -/
theorem third_features : StableHlo.after hostOps0_2 U (Proc.devRef .tc main_v30)
    = Cert.ReferenceIdeal.ReadP.val_main_v30 (F := F) (U (Proc.devRef .tc main_arg0)) (U (Proc.devRef .tc main_arg2)) := by
  after_results
  rfl
theorem third_sources : StableHlo.after hostOps0_2 U (Proc.devRef .tc main_v5) = U (Proc.devRef .tc main_v5) := by
  after_results
theorem third_targets : StableHlo.after hostOps0_2 U (Proc.devRef .tc main_v6) = U (Proc.devRef .tc main_v6) := by
  after_results
theorem third_arg3 : StableHlo.after hostOps0_2 U (Proc.devRef .tc main_arg3) = U (Proc.devRef .tc main_arg3) := by
  after_results
theorem third_arg4 : StableHlo.after hostOps0_2 U (Proc.devRef .tc main_arg4) = U (Proc.devRef .tc main_arg4) := by
  after_results
theorem third_arg5 : StableHlo.after hostOps0_2 U (Proc.devRef .tc main_arg5) = U (Proc.devRef .tc main_arg5) := by
  after_results
theorem third_arg6 : StableHlo.after hostOps0_2 U (Proc.devRef .tc main_arg6) = U (Proc.devRef .tc main_arg6) := by
  after_results

/-! ## The stretch before the second launch: gather along the sources, scale by the weights, sum at the targets -/

set_option maxHeartbeats 4000000 in
theorem fourth_sum (x1 : (⟨Cert.ReferenceIdeal.S2x1600000, .i32⟩ : BufTy).Contents (Elt F)) (h5 : U (Proc.devRef .tc main_v5) = Cert.ReferenceIdeal.ReadP.val_main_v5 (F := F) x1)
    (h6 : U (Proc.devRef .tc main_v6) = Cert.ReferenceIdeal.ReadP.val_main_v6 (F := F) x1) (h29 : U (Proc.devRef .tc main_v29) = Cert.ReferenceIdeal.ReadP.val_main_v29 (F := F) x1) :
    StableHlo.after hostOps1 U (Proc.devRef .tc main_v44) = Cert.ReferenceIdeal.Chains.neighbourSum128 (F := F) (U (Proc.devRef .tc main_v31)) x1 := by
  after_results
  rw [h5, h6, h29]
  rfl
/-- The first bias as a one-row array. -/
theorem fourth_bias : StableHlo.after hostOps1 U (Proc.devRef .tc main_v45) = shapeCast S1x128 (U (Proc.devRef .tc main_arg4)) shapeCasts_S128_S1x128 := by
  after_results
  rfl
theorem fourth_sources : StableHlo.after hostOps1 U (Proc.devRef .tc main_v5) = U (Proc.devRef .tc main_v5) := by
  after_results
theorem fourth_targets : StableHlo.after hostOps1 U (Proc.devRef .tc main_v6) = U (Proc.devRef .tc main_v6) := by
  after_results
theorem fourth_weights : StableHlo.after hostOps1 U (Proc.devRef .tc main_v29) = U (Proc.devRef .tc main_v29) := by
  after_results
theorem fourth_arg5 : StableHlo.after hostOps1 U (Proc.devRef .tc main_arg5) = U (Proc.devRef .tc main_arg5) := by
  after_results
theorem fourth_arg6 : StableHlo.after hostOps1 U (Proc.devRef .tc main_arg6) = U (Proc.devRef .tc main_arg6) := by
  after_results

/-! ## The stretch before the last launch: the same gather, scale and sum on three columns -/

set_option maxHeartbeats 4000000 in
theorem fifth_sum (x1 : (⟨Cert.ReferenceIdeal.S2x1600000, .i32⟩ : BufTy).Contents (Elt F)) (h5 : U (Proc.devRef .tc main_v5) = Cert.ReferenceIdeal.ReadP.val_main_v5 (F := F) x1)
    (h6 : U (Proc.devRef .tc main_v6) = Cert.ReferenceIdeal.ReadP.val_main_v6 (F := F) x1) (h29 : U (Proc.devRef .tc main_v29) = Cert.ReferenceIdeal.ReadP.val_main_v29 (F := F) x1) :
    StableHlo.after hostOps3 U (Proc.devRef .tc main_v60) = Cert.ReferenceIdeal.Chains.neighbourSum3 (F := F) (U (Proc.devRef .tc main_v47)) x1 := by
  after_results
  rw [h5, h6, h29]
  rfl
/-- The second bias as a one-row array. -/
theorem fifth_bias : StableHlo.after hostOps3 U (Proc.devRef .tc main_v61) = shapeCast S1x3 (U (Proc.devRef .tc main_arg6)) shapeCasts_S3_S1x3 := by
  after_results
  rfl

end Cert.KernelIdeal.HostSide

end
-- ==== Proof.Spec.lean ====
/-
  The mathematics of one graph-convolution layer's dense part, as functions of whole arrays over the extended reals.

  A layer multiplies the node features by a weight matrix, row by row: entry `(r, s)` of the product is the sum over the
  shared axis `q` of `X (r, q) * W (q, s)`. After the neighbourhood sum it adds a bias that depends on the column only,
  and the first layer then takes the maximum with zero. Each function below is the result at one index, so that a tile of
  rows computed alone, and the whole array computed at once, are both read as the same function.
-/
import Idealize.ShloMosaic.Lib.ValueIdx

noncomputable section

open scoped BigOperators

namespace Cert.Spec

open Idealize.ShloMosaic Idealize.ShloMosaic.ValueIdx

/-- Entry `(r, s)` of the product of `X : [n, k]` and `W : [k, c]`: the sum over the shared axis. -/
def dotAt {n k c : ℕ} (X : (⟨2, ![n, k]⟩ : Shape).Idx → EReal) (W : (⟨2, ![k, c]⟩ : Shape).Idx → EReal)
    (r : Fin n) (s : Fin c) : EReal := ∑ q : Fin k, X (ix2 r q) * W (ix2 q s)

/-- The product of `X : [n, k]` and `W : [k, c]` as an array `[n, c]`. -/
def rowDot {n k c : ℕ} (X : (⟨2, ![n, k]⟩ : Shape).Idx → EReal) (W : (⟨2, ![k, c]⟩ : Shape).Idx → EReal) :
    (⟨2, ![n, c]⟩ : Shape).Idx → EReal := fun i => dotAt X W ⟨(i 0).val, idx2_lt0 i⟩ ⟨(i 1).val, idx2_lt1 i⟩

theorem rowDot_ix2 {n k c : ℕ} (X : (⟨2, ![n, k]⟩ : Shape).Idx → EReal) (W : (⟨2, ![k, c]⟩ : Shape).Idx → EReal)
    (r : Fin n) (s : Fin c) : rowDot X W (ix2 r s) = dotAt X W r s := rfl

/-- A one-row array `B : [1, c]` added to every row of `A : [n, c]`. -/
def addRow {n c : ℕ} (A : (⟨2, ![n, c]⟩ : Shape).Idx → EReal) (B : (⟨2, ![1, c]⟩ : Shape).Idx → EReal) :
    (⟨2, ![n, c]⟩ : Shape).Idx → EReal := fun i => A i + B (ix2 (0 : Fin 1) ⟨(i 1).val, idx2_lt1 i⟩)

theorem addRow_ix2 {n c : ℕ} (A : (⟨2, ![n, c]⟩ : Shape).Idx → EReal) (B : (⟨2, ![1, c]⟩ : Shape).Idx → EReal)
    (r : Fin n) (s : Fin c) : addRow A B (ix2 r s) = A (ix2 r s) + B (ix2 (0 : Fin 1) s) := rfl

/-- The same followed by the maximum with `z` (the rectifier when `z` is zero). -/
def addRowMax {n c : ℕ} (z : EReal) (A : (⟨2, ![n, c]⟩ : Shape).Idx → EReal) (B : (⟨2, ![1, c]⟩ : Shape).Idx → EReal) :
    (⟨2, ![n, c]⟩ : Shape).Idx → EReal := fun i => max (A i + B (ix2 (0 : Fin 1) ⟨(i 1).val, idx2_lt1 i⟩)) z

theorem addRowMax_ix2 {n c : ℕ} (z : EReal) (A : (⟨2, ![n, c]⟩ : Shape).Idx → EReal) (B : (⟨2, ![1, c]⟩ : Shape).Idx → EReal)
    (r : Fin n) (s : Fin c) : addRowMax z A B (ix2 r s) = max (A (ix2 r s) + B (ix2 (0 : Fin 1) s)) z := rfl

end Cert.Spec

end
-- ==== Proof.Project1.lean ====
/-
  The first launch multiplies a tile of 5000 rows of the [100000, 136] features by the whole [136, 128] weight. Its twenty
  tiles are the twenty consecutive blocks of 5000 rows, so the output array ends as the product of the two input arrays,
  whatever they hold when the launch starts: entry `(r, s)` is the sum over `q` of `X (r, q) * W (q, s)`.
-/
import proofs.«134841_j61306363183554_1_alg».proof.Proof.Gen.KernelIdeal.Frame
import proofs.«134841_j61306363183554_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Project1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! The tile product's operand indices, axis by axis: the left operand is read at (row of the result, shared index), the
    right at (shared index, column of the result). -/

theorem lhs_row (i : S5000x128.Idx) (q : dot_S5000x136_S136x128_S5000x128_1_0_0_1_n_n.contr.Idx) :
    (dot_S5000x136_S136x128_S5000x128_1_0_0_1_n_n.lhsIdx i q 0).val = (i 0).val := by
  unfold DotDims.lhsIdx
  rw [dif_neg (show ¬(0 : Fin S5000x136.rank) ∈ dot_S5000x136_S136x128_S5000x128_1_0_0_1_n_n.lhsBatch by decide), dif_pos (show (0 : Fin S5000x136.rank) ∈ dot_S5000x136_S136x128_S5000x128_1_0_0_1_n_n.lhsNonContracting by decide)]
  rfl
theorem lhs_shared (i : S5000x128.Idx) (q : dot_S5000x136_S136x128_S5000x128_1_0_0_1_n_n.contr.Idx) :
    (dot_S5000x136_S136x128_S5000x128_1_0_0_1_n_n.lhsIdx i q 1).val = (q ⟨0, by decide⟩).val :=
  dot_S5000x136_S136x128_S5000x128_1_0_0_1_n_n.lhsIdx_val_of_single rfl i q
theorem rhs_shared (i : S5000x128.Idx) (q : dot_S5000x136_S136x128_S5000x128_1_0_0_1_n_n.contr.Idx) :
    (dot_S5000x136_S136x128_S5000x128_1_0_0_1_n_n.rhsIdx i q 0).val = (q ⟨0, by decide⟩).val :=
  dot_S5000x136_S136x128_S5000x128_1_0_0_1_n_n.rhsIdx_val_of_single rfl i q
theorem rhs_col (i : S5000x128.Idx) (q : dot_S5000x136_S136x128_S5000x128_1_0_0_1_n_n.contr.Idx) :
    (dot_S5000x136_S136x128_S5000x128_1_0_0_1_n_n.rhsIdx i q 1).val = (i 1).val := by
  unfold DotDims.rhsIdx
  rw [dif_neg (show ¬(1 : Fin S136x128.rank) ∈ dot_S5000x136_S136x128_S5000x128_1_0_0_1_n_n.rhsBatch by decide), dif_pos (show (1 : Fin S136x128.rank) ∈ dot_S5000x136_S136x128_S5000x128_1_0_0_1_n_n.rhsNonContracting by decide)]
  rfl

/-- One entry of a tile's result: the sum over the shared axis of the tile's row times the weight's column (the change of
    float format in front of the product is the identity on the extended reals, and the accumulator starts at zero). -/
theorem tile_apply (x0 : Vec Ideal S5000x136 .f32) (x1 : Vec Ideal S136x128 .f32) (p : Fin 5000) (q : Fin 128) :
    k0_pay1 x0 x1 (ix2 p q) = ∑ k : Fin 136, x0 (ix2 p k) * x1 (ix2 k q) := by
  unfold k0_pay1
  have e0 : shapeCast S5000x136 x0 shapeCasts_S5000x136_S5000x136 = x0 := shapeCast_self x0 _
  show matmul (F := Ideal) dot_S5000x136_S136x128_S5000x128_1_0_0_1_n_n none (truncf (F := Ideal) .bf16 (shapeCast S5000x136 x0 shapeCasts_S5000x136_S5000x136) bitsLt_bf16_f32)
      (truncf (F := Ideal) .bf16 x1 bitsLt_bf16_f32) (constant (F := Ideal) S5000x128 .f32 0x00000000#32) (ix2 p q) = _
  rw [e0]
  refine (Ideal.matmul_constant_zero_apply dot_S5000x136_S136x128_S5000x128_1_0_0_1_n_n none _ _ (ix2 p q)).trans ?_
  rw [← Equiv.sum_comp (contrEquiv1 dot_S5000x136_S136x128_S5000x128_1_0_0_1_n_n 136 rfl rfl).symm]
  refine Finset.sum_congr rfl fun k _ => ?_
  have hk := contrEquiv1_symm_val dot_S5000x136_S136x128_S5000x128_1_0_0_1_n_n 136 rfl rfl k
  have el : dot_S5000x136_S136x128_S5000x128_1_0_0_1_n_n.lhsIdx (ix2 p q) ((contrEquiv1 dot_S5000x136_S136x128_S5000x128_1_0_0_1_n_n 136 rfl rfl).symm k) = ix2 p k := funext fun a => Fin.ext (by
    match a with
    | ⟨0, _⟩ => exact lhs_row _ _
    | ⟨1, _⟩ => exact (lhs_shared _ _).trans hk)
  have er : dot_S5000x136_S136x128_S5000x128_1_0_0_1_n_n.rhsIdx (ix2 p q) ((contrEquiv1 dot_S5000x136_S136x128_S5000x128_1_0_0_1_n_n 136 rfl rfl).symm k) = ix2 k q := funext fun a => Fin.ext (by
    match a with
    | ⟨0, _⟩ => exact (rhs_shared _ _).trans hk
    | ⟨1, _⟩ => exact rhs_col _ _)
  show x0 (dot_S5000x136_S136x128_S5000x128_1_0_0_1_n_n.lhsIdx (ix2 p q) ((contrEquiv1 dot_S5000x136_S136x128_S5000x128_1_0_0_1_n_n 136 rfl rfl).symm k))
      * x1 (dot_S5000x136_S136x128_S5000x128_1_0_0_1_n_n.rhsIdx (ix2 p q) ((contrEquiv1 dot_S5000x136_S136x128_S5000x128_1_0_0_1_n_n 136 rfl rfl).symm k)) = _
  rw [el, er]

/-- The product at an index, from the entries a tile's point reads: the same row of the features against the same column
    of the weight. -/
theorem entry_eq (X : S100000x136.Idx → EReal) (W : S136x128.Idx → EReal) (i2 : S100000x128.Idx)
    (f0 : Fin 136 → S100000x136.Idx) (f1 : Fin 136 → S136x128.Idx)
    (h0 : ∀ k, f0 k = ix2 ⟨(i2 0).val, idx2_lt0 i2⟩ k) (h1 : ∀ k, f1 k = ix2 k ⟨(i2 1).val, idx2_lt1 i2⟩) :
    ∑ k : Fin 136, X (f0 k) * W (f1 k) = Spec.rowDot X W i2 := by
  show _ = ∑ k : Fin 136, X (ix2 ⟨(i2 0).val, idx2_lt0 i2⟩ k) * W (ix2 k ⟨(i2 1).val, idx2_lt1 i2⟩)
  exact Finset.sum_congr rfl fun k _ => by rw [h0 k, h1 k]

/-- Where each window's block sits at grid point `t`: the row tile `t` of the input and of the output, the whole weight. -/
theorem where_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two input arrays. -/
theorem flushed_eq (c : Dev nD) (t : Fin cfg0.N) :
    (dat0 V c).flushed 2 t = ((cfg0.win 2).blk t).view.read (Elt Ideal)
      (Spec.rowDot (V c main_v30) (V c main_arg3)) := by
  show (cfg0.win 2).cut (grid0.coords t) ((dat0 V c).after 2 t) = _
  rw [after0_2]
  unfold out0_2
  rw [View.canon_unit_zero origin]
  simp only [View.ld_unit_zero (S := S5000x136) origin, View.ld_unit_zero (S := S136x128) origin]
  obtain ⟨e0, e1, e2, e3, e4, e5⟩ := where_blocks t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Spec.rowDot (V c main_v30) (V c main_arg3) (((cfg0.win 2).blk t).view.emb (ix2 p q))
  refine (tile_apply (iblk0 V c 0 t) (iblk0 V c 1 t) p q).trans ?_
  have h0 : ∀ k : Fin 136, ((cfg0.win 0).blk t).view.emb (ix2 p k)
      = ix2 ⟨((((cfg0.win 2).blk t).view.emb (ix2 p q)) 0).val, idx2_lt0 _⟩ k := fun k => by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 136 + 1 * k.val = k.val; omega
  have h1 : ∀ k : Fin 136, ((cfg0.win 1).blk t).view.emb (ix2 k q)
      = ix2 k ⟨((((cfg0.win 2).blk t).view.emb (ix2 p q)) 1).val, idx2_lt1 _⟩ := fun k => by
    funext a; apply Fin.ext
    match a with
    | ⟨0, _⟩ => show win0_1.index t (0 : Fin 2) * 136 + 1 * k.val = k.val; omega
    | ⟨1, _⟩ => show win0_1.index t (1 : Fin 2) * 128 + 1 * q.val = win0_2.index t (1 : Fin 2) * 128 + 1 * q.val; omega
  exact entry_eq (V c main_v30) (V c main_arg3) (((cfg0.win 2).blk t).view.emb (ix2 p q))
    (fun k => ((cfg0.win 0).blk t).view.emb (ix2 p k)) (fun k => ((cfg0.win 1).blk t).view.emb (ix2 k q)) h0 h1

/-- An index is in point `t`'s output block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every tile index is some point's. -/
theorem tile_onto : ∀ q0 : Fin 20, ∃ t : Fin cfg0.N, win0_2.index t = ![q0.val, 0] :=
  (by decide +kernel : ∀ q0 : Fin 20, ∃ t : Fin grid0.N, win0_2.index t = ![q0.val, 0])

/-- The twenty blocks cover the array: row `r` lies in tile `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := tile_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array is the product of the two input arrays as the launch found them. -/
theorem final (c : Dev nD) :
    (dat0 V c).arrAt 2 cfg0.N = Spec.rowDot (V c main_v30) (V c main_arg3) :=
  (dat0 V c).arrAt_eq_of_cover 2 _ (fun t _ => flushed_eq V c t) covered

end Cert.KernelIdeal.Project1

end
-- ==== Proof.BiasMax.lean ====
/-
  The second launch adds the bias row to a tile of 5000 rows and takes the maximum with zero. Its twenty tiles are the
  twenty consecutive blocks of 5000 rows of the [100000, 128] array, and the bias block is the whole one-row array at
  every point. So whatever the two input arrays hold when the launch starts, the output array ends as one function of
  them: at `(r, s)`, the maximum of `A (r, s) + B (0, s)` and zero.
-/
import proofs.«134841_j61306363183554_1_alg».proof.Proof.Gen.KernelIdeal.Frame
import proofs.«134841_j61306363183554_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BiasMax

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One entry of a tile's result: the tile's entry plus the bias row's entry of that column, against zero. -/
theorem tile_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  have e0 : shapeCast S5000x128 x0 shapeCasts_S5000x128_S5000x128 = x0 := shapeCast_self x0 _
  have e1 : shapeCast S1x128 x1 shapeCasts_S1x128_S1x128 = x1 := shapeCast_self x1 _
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [e0, e1, broadcastTo_1b_ab_apply x1 broadcasts_S1x128_S5000x128 p q]

/-- The whole-array function at an index, from the entries a tile's point reads: the same row entry, and the bias row's
    entry of the same column. -/
theorem entry_eq (A : S100000x128.Idx → EReal) (B : S1x128.Idx → EReal) (z : EReal) (i0 i2 : S100000x128.Idx) (i1 : S1x128.Idx)
    (h0 : i0 = i2) (h1 : i1 = ix2 (0 : Fin 1) ⟨(i2 1).val, idx2_lt1 i2⟩) : max (A i0 + B i1) z = Spec.addRowMax z A B i2 := by
  subst h0; rw [h1]; rfl

/-- Where each window's block sits at grid point `t`: the row tile `t` for the input and the output, the whole bias row. -/
theorem where_blocks : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function. -/
theorem flushed_eq (c : Dev nD) (t : Fin cfg1.N) :
    (dat1 V c).flushed 2 t = ((cfg1.win 2).blk t).view.read (Elt Ideal)
      (Spec.addRowMax (Ideal.ofBits .f32 0x00000000#32) (V c main_v44) (V c main_v45)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := where_blocks t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Spec.addRowMax (Ideal.ofBits .f32 0x00000000#32) (V c main_v44) (V c main_v45) (((cfg1.win 2).blk t).view.emb (ix2 p q))
  refine (tile_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) ⟨((((cfg1.win 2).blk t).view.emb (ix2 p q)) 1).val, idx2_lt1 _⟩ := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact entry_eq (V c main_v44) (V c main_v45) (Ideal.ofBits .f32 0x00000000#32) (((cfg1.win 0).blk t).view.emb (ix2 p q))
    (((cfg1.win 2).blk t).view.emb (ix2 p q)) (((cfg1.win 1).blk t).view.emb (ix2 (0 : Fin 1) q)) h0 h1

/-- An index is in point `t`'s output block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every tile index is some point's. -/
theorem tile_onto : ∀ q0 : Fin 20, ∃ t : Fin cfg1.N, win1_2.index t = ![q0.val, 0] :=
  (by decide +kernel : ∀ q0 : Fin 20, ∃ t : Fin grid1.N, win1_2.index t = ![q0.val, 0])

/-- The twenty blocks cover the array: row `r` lies in tile `r / 5000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := tile_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the output array is the whole-array function of the two input arrays as the launch found them. -/
theorem final (c : Dev nD) :
    (dat1 V c).arrAt 2 cfg1.N = Spec.addRowMax (Ideal.ofBits .f32 0x00000000#32) (V c main_v44) (V c main_v45) :=
  (dat1 V c).arrAt_eq_of_cover 2 _ (fun t _ => flushed_eq V c t) covered

end Cert.KernelIdeal.BiasMax

end
-- ==== Proof.Project2.lean ====
/-
  The third launch multiplies a tile of 5000 rows of the [100000, 128] hidden features by the whole [128, 3] weight. Its twenty
  tiles are the twenty consecutive blocks of 5000 rows, so the output array ends as the product of the two input arrays,
  whatever they hold when the launch starts: entry `(r, s)` is the sum over `q` of `X (r, q) * W (q, s)`.
-/
import proofs.«134841_j61306363183554_1_alg».proof.Proof.Gen.KernelIdeal.Frame
import proofs.«134841_j61306363183554_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Project2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! The tile product's operand indices, axis by axis: the left operand is read at (row of the result, shared index), the
    right at (shared index, column of the result). -/

theorem lhs_row (i : S5000x3.Idx) (q : dot_S5000x128_S128x3_S5000x3_1_0_0_1_n_n.contr.Idx) :
    (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
theorem lhs_shared (i : S5000x3.Idx) (q : dot_S5000x128_S128x3_S5000x3_1_0_0_1_n_n.contr.Idx) :
    (dot_S5000x128_S128x3_S5000x3_1_0_0_1_n_n.lhsIdx i q 1).val = (q ⟨0, by decide⟩).val :=
  dot_S5000x128_S128x3_S5000x3_1_0_0_1_n_n.lhsIdx_val_of_single rfl i q
theorem rhs_shared (i : S5000x3.Idx) (q : dot_S5000x128_S128x3_S5000x3_1_0_0_1_n_n.contr.Idx) :
    (dot_S5000x128_S128x3_S5000x3_1_0_0_1_n_n.rhsIdx i q 0).val = (q ⟨0, by decide⟩).val :=
  dot_S5000x128_S128x3_S5000x3_1_0_0_1_n_n.rhsIdx_val_of_single rfl i q
theorem rhs_col (i : S5000x3.Idx) (q : dot_S5000x128_S128x3_S5000x3_1_0_0_1_n_n.contr.Idx) :
    (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-- One entry of a tile's result: the sum over the shared axis of the tile's row times the weight's column (the change of
    float format in front of the product is the identity on the extended reals, and the accumulator starts at zero). -/
theorem tile_apply (x0 : Vec Ideal S5000x128 .f32) (x1 : Vec Ideal S128x3 .f32) (p : Fin 5000) (q : Fin 3) :
    k2_pay1 x0 x1 (ix2 p q) = ∑ k : Fin 128, x0 (ix2 p k) * x1 (ix2 k q) := by
  unfold k2_pay1
  have e0 : shapeCast S5000x128 x0 shapeCasts_S5000x128_S5000x128 = x0 := shapeCast_self x0 _
  show matmul (F := Ideal) dot_S5000x128_S128x3_S5000x3_1_0_0_1_n_n none (truncf (F := Ideal) .bf16 (shapeCast S5000x128 x0 shapeCasts_S5000x128_S5000x128) bitsLt_bf16_f32)
      (truncf (F := Ideal) .bf16 x1 bitsLt_bf16_f32) (constant (F := Ideal) S5000x3 .f32 0x00000000#32) (ix2 p q) = _
  rw [e0]
  refine (Ideal.matmul_constant_zero_apply dot_S5000x128_S128x3_S5000x3_1_0_0_1_n_n none _ _ (ix2 p q)).trans ?_
  rw [← Equiv.sum_comp (contrEquiv1 dot_S5000x128_S128x3_S5000x3_1_0_0_1_n_n 128 rfl rfl).symm]
  refine Finset.sum_congr rfl fun k _ => ?_
  have hk := contrEquiv1_symm_val dot_S5000x128_S128x3_S5000x3_1_0_0_1_n_n 128 rfl rfl k
  have el : dot_S5000x128_S128x3_S5000x3_1_0_0_1_n_n.lhsIdx (ix2 p q) ((contrEquiv1 dot_S5000x128_S128x3_S5000x3_1_0_0_1_n_n 128 rfl rfl).symm k) = ix2 p k := funext fun a => Fin.ext (by
    match a with
    | ⟨0, _⟩ => exact lhs_row _ _
    | ⟨1, _⟩ => exact (lhs_shared _ _).trans hk)
  have er : dot_S5000x128_S128x3_S5000x3_1_0_0_1_n_n.rhsIdx (ix2 p q) ((contrEquiv1 dot_S5000x128_S128x3_S5000x3_1_0_0_1_n_n 128 rfl rfl).symm k) = ix2 k q := funext fun a => Fin.ext (by
    match a with
    | ⟨0, _⟩ => exact (rhs_shared _ _).trans hk
    | ⟨1, _⟩ => exact rhs_col _ _)
  show x0 (dot_S5000x128_S128x3_S5000x3_1_0_0_1_n_n.lhsIdx (ix2 p q) ((contrEquiv1 dot_S5000x128_S128x3_S5000x3_1_0_0_1_n_n 128 rfl rfl).symm k))
      * x1 (dot_S5000x128_S128x3_S5000x3_1_0_0_1_n_n.rhsIdx (ix2 p q) ((contrEquiv1 dot_S5000x128_S128x3_S5000x3_1_0_0_1_n_n 128 rfl rfl).symm k)) = _
  rw [el, er]

/-- The product at an index, from the entries a tile's point reads: the same row of the features against the same column
    of the weight. -/
theorem entry_eq (X : S100000x128.Idx → EReal) (W : S128x3.Idx → EReal) (i2 : S100000x3.Idx)
    (f0 : Fin 128 → S100000x128.Idx) (f1 : Fin 128 → S128x3.Idx)
    (h0 : ∀ k, f0 k = ix2 ⟨(i2 0).val, idx2_lt0 i2⟩ k) (h1 : ∀ k, f1 k = ix2 k ⟨(i2 1).val, idx2_lt1 i2⟩) :
    ∑ k : Fin 128, X (f0 k) * W (f1 k) = Spec.rowDot X W i2 := by
  show _ = ∑ k : Fin 128, X (ix2 ⟨(i2 0).val, idx2_lt0 i2⟩ k) * W (ix2 k ⟨(i2 1).val, idx2_lt1 i2⟩)
  exact Finset.sum_congr rfl fun k _ => by rw [h0 k, h1 k]

/-- Where each window's block sits at grid point `t`: the row tile `t` of the input and of the output, the whole weight. -/
theorem where_blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two input arrays. -/
theorem flushed_eq (c : Dev nD) (t : Fin cfg2.N) :
    (dat2 V c).flushed 2 t = ((cfg2.win 2).blk t).view.read (Elt Ideal)
      (Spec.rowDot (V c main_v46) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x3) origin]
  obtain ⟨e0, e1, e2, e3, e4, e5⟩ := where_blocks t
  funext j
  obtain ⟨p, q, rfl⟩ : ∃ (p : Fin 5000) (q : Fin 3), j = ix2 p q := ⟨j 0, j 1, eq_ix2 j⟩
  show k2_pay1 (iblk2 V c 0 t) (iblk2 V c 1 t) (ix2 p q)
    = Spec.rowDot (V c main_v46) (V c main_arg5) (((cfg2.win 2).blk t).view.emb (ix2 p q))
  refine (tile_apply (iblk2 V c 0 t) (iblk2 V c 1 t) p q).trans ?_
  have h0 : ∀ k : Fin 128, ((cfg2.win 0).blk t).view.emb (ix2 p k)
      = ix2 ⟨((((cfg2.win 2).blk t).view.emb (ix2 p q)) 0).val, idx2_lt0 _⟩ k := fun k => by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ∀ k : Fin 128, ((cfg2.win 1).blk t).view.emb (ix2 k q)
      = ix2 k ⟨((((cfg2.win 2).blk t).view.emb (ix2 p q)) 1).val, idx2_lt1 _⟩ := fun k => by
    funext a; apply Fin.ext
    match a with
    | ⟨0, _⟩ => show win2_1.index t (0 : Fin 2) * 128 + 1 * k.val = k.val; omega
    | ⟨1, _⟩ => show win2_1.index t (1 : Fin 2) * 3 + 1 * q.val = win2_2.index t (1 : Fin 2) * 3 + 1 * q.val; omega
  exact entry_eq (V c main_v46) (V c main_arg5) (((cfg2.win 2).blk t).view.emb (ix2 p q))
    (fun k => ((cfg2.win 0).blk t).view.emb (ix2 p k)) (fun k => ((cfg2.win 1).blk t).view.emb (ix2 k q)) h0 h1

/-- An index is in point `t`'s output block iff each coordinate is in the block's range on its axis. -/
theorem mem_blk (t : Fin cfg2.N) (i : S100000x3.Idx) :
    i ∈ ((cfg2.win 2).blk t).view.set ↔ ∀ a : Fin 2, win2_2.index t a * S5000x3.size a ≤ (i a).val ∧ (i a).val < win2_2.index t a * S5000x3.size a + S5000x3.size a := by
  show i ∈ ((View.whole main_v47).slice (win2_2.rect t)).set ↔ _
  rw [View.set_slice_whole, Rect.mem_set_unit]
  exact Iff.rfl

/-- Every tile index is some point's. -/
theorem tile_onto : ∀ q0 : Fin 20, ∃ t : Fin cfg2.N, win2_2.index t = ![q0.val, 0] :=
  (by decide +kernel : ∀ q0 : Fin 20, ∃ t : Fin grid2.N, win2_2.index t = ![q0.val, 0])

/-- The twenty blocks cover the array: row `r` lies in tile `r / 5000`. -/
theorem covered (i : S100000x3.Idx) :
    ∃ t : Fin cfg2.N, (cfg2.win 2).flush t = true ∧ i ∈ ((cfg2.win 2).blk t).view.set := by
  have hi0 : (i 0).val < 100000 := (i 0).isLt
  have hi1 : (i 1).val < 3 := (i 1).isLt
  obtain ⟨t, ht⟩ := tile_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 3 ≤ (i 1).val ∧ (i 1).val < win2_2.index t (1 : Fin 2) * 3 + 3; omega

/-- After the launch the output array is the product of the two input arrays as the launch found them. -/
theorem final (c : Dev nD) :
    (dat2 V c).arrAt 2 cfg2.N = Spec.rowDot (V c main_v46) (V c main_arg5) :=
  (dat2 V c).arrAt_eq_of_cover 2 _ (fun t _ => flushed_eq V c t) covered

end Cert.KernelIdeal.Project2

end
-- ==== Proof.Bias.lean ====
/-
  The last launch adds the bias row to a tile of 5000 rows. Its twenty tiles are the twenty consecutive blocks of 5000
  rows of the [100000, 3] array, and the bias block is the whole one-row array at every point. So whatever the two input
  arrays hold when the launch starts, the output array ends as one function of them: at `(r, s)`, `A (r, s) + B (0, s)`.
-/
import proofs.«134841_j61306363183554_1_alg».proof.Proof.Gen.KernelIdeal.Frame
import proofs.«134841_j61306363183554_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Bias

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One entry of a tile's result: the tile's entry plus the bias row's entry of that column. -/
theorem tile_apply (x0 : Vec Ideal S5000x3 .f32) (x1 : Vec Ideal S1x3 .f32) (p : Fin 5000) (q : Fin 3) :
    k3_pay1 x0 x1 (ix2 p q) = x0 (ix2 p q) + x1 (ix2 (0 : Fin 1) q) := by
  unfold k3_pay1
  have e0 : shapeCast S5000x3 x0 shapeCasts_S5000x3_S5000x3 = x0 := shapeCast_self x0 _
  have e1 : shapeCast S1x3 x1 shapeCasts_S1x3_S1x3 = x1 := shapeCast_self x1 _
  show shapeCast S5000x3 x0 shapeCasts_S5000x3_S5000x3 (ix2 p q)
      + broadcastTo S5000x3 (shapeCast S1x3 x1 shapeCasts_S1x3_S1x3) broadcasts_S1x3_S5000x3 (ix2 p q) = _
  rw [e0, e1, broadcastTo_1b_ab_apply x1 broadcasts_S1x3_S5000x3 p q]

/-- The whole-array function at an index, from the entries a tile's point reads: the same row entry, and the bias row's
    entry of the same column. -/
theorem entry_eq (A : S100000x3.Idx → EReal) (B : S1x3.Idx → EReal) (i0 i2 : S100000x3.Idx) (i1 : S1x3.Idx)
    (h0 : i0 = i2) (h1 : i1 = ix2 (0 : Fin 1) ⟨(i2 1).val, idx2_lt1 i2⟩) : A i0 + B i1 = Spec.addRow A B i2 := by
  subst h0; rw [h1]; rfl

/-- Where each window's block sits at grid point `t`: the row tile `t` for the input and the output, the whole bias row. -/
theorem where_blocks : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function. -/
theorem flushed_eq (c : Dev nD) (t : Fin cfg3.N) :
    (dat3 V c).flushed 2 t = ((cfg3.win 2).blk t).view.read (Elt Ideal) (Spec.addRow (V c main_v60) (V c main_v61)) := by
  show (cfg3.win 2).cut (grid3.coords t) ((dat3 V c).after 2 t) = _
  rw [after3_2]
  unfold out3_2
  rw [View.canon_unit_zero origin]
  simp only [View.ld_unit_zero (S := S5000x3) origin, View.ld_unit_zero (S := S1x3) origin]
  obtain ⟨e0, e1, e2, e3, e4, e5⟩ := where_blocks t
  funext j
  obtain ⟨p, q, rfl⟩ : ∃ (p : Fin 5000) (q : Fin 3), j = ix2 p q := ⟨j 0, j 1, eq_ix2 j⟩
  show k3_pay1 (iblk3 V c 0 t) (iblk3 V c 1 t) (ix2 p q)
    = Spec.addRow (V c main_v60) (V c main_v61) (((cfg3.win 2).blk t).view.emb (ix2 p q))
  refine (tile_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 3 + 1 * q.val = win3_2.index t (1 : Fin 2) * 3 + 1 * q.val; omega
  have h1 : ((cfg3.win 1).blk t).view.emb (ix2 (0 : Fin 1) q)
      = ix2 (0 : Fin 1) ⟨((((cfg3.win 2).blk t).view.emb (ix2 p q)) 1).val, idx2_lt1 _⟩ := by
    funext a; apply Fin.ext
    match a with
    | ⟨0, _⟩ => show win3_1.index t (0 : Fin 2) * 1 + 1 * 0 = 0; omega
    | ⟨1, _⟩ => show win3_1.index t (1 : Fin 2) * 3 + 1 * q.val = win3_2.index t (1 : Fin 2) * 3 + 1 * q.val; omega
  exact entry_eq (V c main_v60) (V c main_v61) (((cfg3.win 0).blk t).view.emb (ix2 p q))
    (((cfg3.win 2).blk t).view.emb (ix2 p q)) (((cfg3.win 1).blk t).view.emb (ix2 (0 : Fin 1) q)) h0 h1

/-- An index is in point `t`'s output block iff each coordinate is in the block's range on its axis. -/
theorem mem_blk (t : Fin cfg3.N) (i : S100000x3.Idx) :
    i ∈ ((cfg3.win 2).blk t).view.set ↔ ∀ a : Fin 2, win3_2.index t a * S5000x3.size a ≤ (i a).val ∧ (i a).val < win3_2.index t a * S5000x3.size a + S5000x3.size a := by
  show i ∈ ((View.whole main_v62).slice (win3_2.rect t)).set ↔ _
  rw [View.set_slice_whole, Rect.mem_set_unit]
  exact Iff.rfl

/-- Every tile index is some point's. -/
theorem tile_onto : ∀ q0 : Fin 20, ∃ t : Fin cfg3.N, win3_2.index t = ![q0.val, 0] :=
  (by decide +kernel : ∀ q0 : Fin 20, ∃ t : Fin grid3.N, win3_2.index t = ![q0.val, 0])

/-- The twenty blocks cover the array: row `r` lies in tile `r / 5000`. -/
theorem covered (i : S100000x3.Idx) :
    ∃ t : Fin cfg3.N, (cfg3.win 2).flush t = true ∧ i ∈ ((cfg3.win 2).blk t).view.set := by
  have hi0 : (i 0).val < 100000 := (i 0).isLt
  have hi1 : (i 1).val < 3 := (i 1).isLt
  obtain ⟨t, ht⟩ := tile_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 3 ≤ (i 1).val ∧ (i 1).val < win3_2.index t (1 : Fin 2) * 3 + 3; omega

/-- After the launch the output array is the whole-array function of the two input arrays as the launch found them. -/
theorem final (c : Dev nD) :
    (dat3 V c).arrAt 2 cfg3.N = Spec.addRow (V c main_v60) (V c main_v61) :=
  (dat3 V c).arrAt_eq_of_cover 2 _ (fun t _ => flushed_eq V c t) covered

end Cert.KernelIdeal.Bias

end
-- ==== Proof.Stages.lean ====
/-
  The reference's dense stages are the specification's functions.

  The reference multiplies the whole [100000, k] array by the weight at once, and adds the bias after broadcasting it to
  the whole array. Read at an index these are the same sums and the same sum-with-bias as the specification's: the
  product's entry `(r, s)` is the sum over the shared axis, the broadcast bias at `(r, s)` is the bias at `s`, and a
  one-row array made from the bias by a change of shape holds the bias at `(0, s)`.
-/
import proofs.«134841_j61306363183554_1_alg».proof.Proof.RefRead
import proofs.«134841_j61306363183554_1_alg».proof.Proof.Spec
import Idealize.ShloMosaic.Lib.ValueLayout

noncomputable section

namespace Cert.ReferenceIdeal.Stages

open Cert.ReferenceIdeal Cert.ReferenceIdeal.ReadP Idealize.ShloMosaic Idealize.ShloMosaic.ValueIdx

/-- The first layer's product stage is the product of the joined features and the first weight. -/
theorem product1 (x0 : (⟨S100000x128, .f32⟩ : BufTy).Contents (Elt Ideal)) (x2 : (⟨S100000x8, .f32⟩ : BufTy).Contents (Elt Ideal))
    (x3 : (⟨S136x128, .f32⟩ : BufTy).Contents (Elt Ideal)) :
    Spec.rowDot (val_main_v30 (F := Ideal) x0 x2) x3 = val_main_v31 (F := Ideal) x0 x2 x3 := by
  funext i
  obtain ⟨r, s, rfl⟩ : ∃ (r : Fin 100000) (s : Fin 128), i = ix2 r s := ⟨i 0, i 1, eq_ix2 i⟩
  rw [val_main_v31_apply, Spec.rowDot_ix2]
  unfold Spec.dotAt
  refine Finset.sum_congr rfl fun k _ => ?_
  have hl : lidx_main_v31 (ix2 r s) k = ix2 r k := funext fun a => by match a with | ⟨0, _⟩ => rfl | ⟨1, _⟩ => rfl
  have hr : ridx_main_v31 (ix2 r s) k = ix2 k s := funext fun a => by match a with | ⟨0, _⟩ => rfl | ⟨1, _⟩ => rfl
  rw [hl, hr]

/-- The first layer's rectified stage is the neighbourhood sum plus the bias row, against zero. -/
theorem rectified (x0 : (⟨S100000x128, .f32⟩ : BufTy).Contents (Elt Ideal)) (x1 : (⟨S2x1600000, .i32⟩ : BufTy).Contents (Elt Ideal))
    (x2 : (⟨S100000x8, .f32⟩ : BufTy).Contents (Elt Ideal)) (x3 : (⟨S136x128, .f32⟩ : BufTy).Contents (Elt Ideal))
    (x4 : (⟨S128, .f32⟩ : BufTy).Contents (Elt Ideal)) (h : S128.ShapeCasts S1x128) :
    Spec.addRowMax (Ideal.ofBits .f32 0x00000000#32) (val_main_v44 (F := Ideal) x0 x1 x2 x3) (shapeCast S1x128 x4 h)
      = val_main_v48 (F := Ideal) x0 x1 x2 x3 x4 := by
  funext i
  obtain ⟨r, s, rfl⟩ : ∃ (r : Fin 100000) (s : Fin 128), i = ix2 r s := ⟨i 0, i 1, eq_ix2 i⟩
  have hi : idx_main_v45 (idx_main_v46 (ix2 r s)) = ix1 s := funext fun a => by match a with | ⟨0, _⟩ => rfl
  rw [Spec.addRowMax_ix2, val_main_v48_apply, val_main_v47_apply, val_main_v46_apply, val_main_v45_apply, val_main_call1_v0_apply,
    val_main_call1_cst_apply, shapeCast_a_1a_apply x4 h 0 s, hi]
  rfl

/-- The second layer's product stage is the product of the rectified features and the second weight. -/
theorem product2 (x0 : (⟨S100000x128, .f32⟩ : BufTy).Contents (Elt Ideal)) (x1 : (⟨S2x1600000, .i32⟩ : BufTy).Contents (Elt Ideal))
    (x2 : (⟨S100000x8, .f32⟩ : BufTy).Contents (Elt Ideal)) (x3 : (⟨S136x128, .f32⟩ : BufTy).Contents (Elt Ideal))
    (x4 : (⟨S128, .f32⟩ : BufTy).Contents (Elt Ideal)) (x5 : (⟨S128x3, .f32⟩ : BufTy).Contents (Elt Ideal)) :
    Spec.rowDot (val_main_v48 (F := Ideal) x0 x1 x2 x3 x4) x5 = val_main_v49 (F := Ideal) x0 x1 x2 x3 x4 x5 := by
  funext i
  obtain ⟨r, s, rfl⟩ : ∃ (r : Fin 100000) (s : Fin 3), i = ix2 r s := ⟨i 0, i 1, eq_ix2 i⟩
  rw [val_main_v49_apply, Spec.rowDot_ix2]
  unfold Spec.dotAt
  refine Finset.sum_congr rfl fun k _ => ?_
  have hl : lidx_main_v49 (ix2 r s) k = ix2 r k := funext fun a => by match a with | ⟨0, _⟩ => rfl | ⟨1, _⟩ => rfl
  have hr : ridx_main_v49 (ix2 r s) k = ix2 k s := funext fun a => by match a with | ⟨0, _⟩ => rfl | ⟨1, _⟩ => rfl
  rw [hl, hr]

/-- The last stage is the second neighbourhood sum plus the bias row. -/
theorem biased (x0 : (⟨S100000x128, .f32⟩ : BufTy).Contents (Elt Ideal)) (x1 : (⟨S2x1600000, .i32⟩ : BufTy).Contents (Elt Ideal))
    (x2 : (⟨S100000x8, .f32⟩ : BufTy).Contents (Elt Ideal)) (x3 : (⟨S136x128, .f32⟩ : BufTy).Contents (Elt Ideal))
    (x4 : (⟨S128, .f32⟩ : BufTy).Contents (Elt Ideal)) (x5 : (⟨S128x3, .f32⟩ : BufTy).Contents (Elt Ideal))
    (x6 : (⟨S3, .f32⟩ : BufTy).Contents (Elt Ideal)) (h : S3.ShapeCasts S1x3) :
    Spec.addRow (val_main_v62 (F := Ideal) x0 x1 x2 x3 x4 x5) (shapeCast S1x3 x6 h)
      = val_main_v65 (F := Ideal) x0 x1 x2 x3 x4 x5 x6 := by
  funext i
  obtain ⟨r, s, rfl⟩ : ∃ (r : Fin 100000) (s : Fin 3), i = ix2 r s := ⟨i 0, i 1, eq_ix2 i⟩
  have hi : idx_main_v63 (idx_main_v64 (ix2 r s)) = ix1 s := funext fun a => by match a with | ⟨0, _⟩ => rfl
  rw [Spec.addRow_ix2, val_main_v65_apply, val_main_v64_apply, val_main_v63_apply, shapeCast_a_1a_apply x6 h 0 s, hi]
  rfl

end Cert.ReferenceIdeal.Stages

end
-- ==== Proof.Walk.lean ====
/-
  The idealized kernel program's result, read boundary by boundary.

  The program is nine stretches: host operations, then a launch, and so on. The buffer contents at each boundary are a
  fold from the launch memory. Read at the buffers the later stretches use, each boundary's contents are the same
  functions of the seven argument arrays as the reference's stages: the edge bookkeeping (source and target node of
  every message, self loops appended, and the symmetric normalisation) is computed by the same host operations on both
  sides; a launch that multiplies row tiles by a weight leaves the whole product; a launch that adds the bias row to row
  tiles (and takes the maximum with zero) leaves the whole sum. The last boundary's result buffer is therefore the
  reference's last stage.
-/
import proofs.«134841_j61306363183554_1_alg».proof.Proof.Gen.KernelIdeal.Frame
import proofs.«134841_j61306363183554_1_alg».proof.Proof.HostSide
import proofs.«134841_j61306363183554_1_alg».proof.Proof.Project1
import proofs.«134841_j61306363183554_1_alg».proof.Proof.BiasMax
import proofs.«134841_j61306363183554_1_alg».proof.Proof.Project2
import proofs.«134841_j61306363183554_1_alg».proof.Proof.Bias
import proofs.«134841_j61306363183554_1_alg».proof.Proof.Stages
import proofs.«134841_j61306363183554_1_alg».proof.Proof.Chains

set_option maxRecDepth 16384

noncomputable section

namespace Cert.KernelIdeal.Walk

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg) (c : Dev nD)

/-! ## After the first stretch -/

theorem b1_sources : W1 m ρ c (Proc.devRef .tc main_v5) = Cert.ReferenceIdeal.ReadP.val_main_v5 (F := Ideal) (m ((c : Thread nD τ).loc main_arg1)) := HostSide.first_sources (W0 m ρ c)
theorem b1_targets : W1 m ρ c (Proc.devRef .tc main_v6) = Cert.ReferenceIdeal.ReadP.val_main_v6 (F := Ideal) (m ((c : Thread nD τ).loc main_arg1)) := HostSide.first_targets (W0 m ρ c)
theorem b1_positive : W1 m ρ c (Proc.devRef .tc main_v12) = Cert.ReferenceIdeal.ReadP.val_main_v12 (F := Ideal) (m ((c : Thread nD τ).loc main_arg1)) := HostSide.first_positive (W0 m ρ c)
theorem b1_rsqrt : W1 m ρ c (Proc.devRef .tc main_v13) = Cert.ReferenceIdeal.ReadP.val_main_v13 (F := Ideal) (m ((c : Thread nD τ).loc main_arg1)) := HostSide.first_rsqrt (W0 m ρ c)
theorem b1_zero : W1 m ρ c (Proc.devRef .tc main_cst_2) = Cert.ReferenceIdeal.ReadP.val_main_cst_2 (F := Ideal) := HostSide.first_zero (W0 m ρ c)
theorem b1_arg0 : W1 m ρ c (Proc.devRef .tc main_arg0) = (m ((c : Thread nD τ).loc main_arg0)) := HostSide.first_arg0 (W0 m ρ c)
theorem b1_arg2 : W1 m ρ c (Proc.devRef .tc main_arg2) = (m ((c : Thread nD τ).loc main_arg2)) := HostSide.first_arg2 (W0 m ρ c)
theorem b1_arg3 : W1 m ρ c (Proc.devRef .tc main_arg3) = (m ((c : Thread nD τ).loc main_arg3)) := HostSide.first_arg3 (W0 m ρ c)
theorem b1_arg4 : W1 m ρ c (Proc.devRef .tc main_arg4) = (m ((c : Thread nD τ).loc main_arg4)) := HostSide.first_arg4 (W0 m ρ c)
theorem b1_arg5 : W1 m ρ c (Proc.devRef .tc main_arg5) = (m ((c : Thread nD τ).loc main_arg5)) := HostSide.first_arg5 (W0 m ρ c)
theorem b1_arg6 : W1 m ρ c (Proc.devRef .tc main_arg6) = (m ((c : Thread nD τ).loc main_arg6)) := HostSide.first_arg6 (W0 m ρ c)

/-! ## After the second stretch -/

theorem b2_dinv : W2 m ρ c (Proc.devRef .tc main_v14) = Cert.ReferenceIdeal.ReadP.val_main_v14 (F := Ideal) (m ((c : Thread nD τ).loc main_arg1)) :=
  HostSide.second_dinv (W1 m ρ c) (m ((c : Thread nD τ).loc main_arg1)) (b1_positive m ρ c) (b1_rsqrt m ρ c) (b1_zero m ρ c)
theorem b2_sources : W2 m ρ c (Proc.devRef .tc main_v5) = Cert.ReferenceIdeal.ReadP.val_main_v5 (F := Ideal) (m ((c : Thread nD τ).loc main_arg1)) := (HostSide.second_sources (W1 m ρ c)).trans (b1_sources m ρ c)
theorem b2_targets : W2 m ρ c (Proc.devRef .tc main_v6) = Cert.ReferenceIdeal.ReadP.val_main_v6 (F := Ideal) (m ((c : Thread nD τ).loc main_arg1)) := (HostSide.second_targets (W1 m ρ c)).trans (b1_targets m ρ c)
theorem b2_arg0 : W2 m ρ c (Proc.devRef .tc main_arg0) = (m ((c : Thread nD τ).loc main_arg0)) := (HostSide.second_arg0 (W1 m ρ c)).trans (b1_arg0 m ρ c)
theorem b2_arg2 : W2 m ρ c (Proc.devRef .tc main_arg2) = (m ((c : Thread nD τ).loc main_arg2)) := (HostSide.second_arg2 (W1 m ρ c)).trans (b1_arg2 m ρ c)
theorem b2_arg3 : W2 m ρ c (Proc.devRef .tc main_arg3) = (m ((c : Thread nD τ).loc main_arg3)) := (HostSide.second_arg3 (W1 m ρ c)).trans (b1_arg3 m ρ c)
theorem b2_arg4 : W2 m ρ c (Proc.devRef .tc main_arg4) = (m ((c : Thread nD τ).loc main_arg4)) := (HostSide.second_arg4 (W1 m ρ c)).trans (b1_arg4 m ρ c)
theorem b2_arg5 : W2 m ρ c (Proc.devRef .tc main_arg5) = (m ((c : Thread nD τ).loc main_arg5)) := (HostSide.second_arg5 (W1 m ρ c)).trans (b1_arg5 m ρ c)
theorem b2_arg6 : W2 m ρ c (Proc.devRef .tc main_arg6) = (m ((c : Thread nD τ).loc main_arg6)) := (HostSide.second_arg6 (W1 m ρ c)).trans (b1_arg6 m ρ c)

/-! ## After the third stretch: what the first launch is entered with -/

theorem b3_weights : W3 m ρ c (Proc.devRef .tc main_v29) = Cert.ReferenceIdeal.ReadP.val_main_v29 (F := Ideal) (m ((c : Thread nD τ).loc main_arg1)) :=
  HostSide.third_weights (W2 m ρ c) (m ((c : Thread nD τ).loc main_arg1)) (b2_dinv m ρ c) (b2_sources m ρ c) (b2_targets m ρ c)
theorem b3_features : W3 m ρ c (Proc.devRef .tc main_v30) = Cert.ReferenceIdeal.ReadP.val_main_v30 (F := Ideal) (m ((c : Thread nD τ).loc main_arg0)) (m ((c : Thread nD τ).loc main_arg2)) :=
  (HostSide.third_features (W2 m ρ c)).trans (by rw [b2_arg0, b2_arg2])
theorem b3_sources : W3 m ρ c (Proc.devRef .tc main_v5) = Cert.ReferenceIdeal.ReadP.val_main_v5 (F := Ideal) (m ((c : Thread nD τ).loc main_arg1)) := (HostSide.third_sources (W2 m ρ c)).trans (b2_sources m ρ c)
theorem b3_targets : W3 m ρ c (Proc.devRef .tc main_v6) = Cert.ReferenceIdeal.ReadP.val_main_v6 (F := Ideal) (m ((c : Thread nD τ).loc main_arg1)) := (HostSide.third_targets (W2 m ρ c)).trans (b2_targets m ρ c)
theorem b3_arg3 : W3 m ρ c (Proc.devRef .tc main_arg3) = (m ((c : Thread nD τ).loc main_arg3)) := (HostSide.third_arg3 (W2 m ρ c)).trans (b2_arg3 m ρ c)
theorem b3_arg4 : W3 m ρ c (Proc.devRef .tc main_arg4) = (m ((c : Thread nD τ).loc main_arg4)) := (HostSide.third_arg4 (W2 m ρ c)).trans (b2_arg4 m ρ c)
theorem b3_arg5 : W3 m ρ c (Proc.devRef .tc main_arg5) = (m ((c : Thread nD τ).loc main_arg5)) := (HostSide.third_arg5 (W2 m ρ c)).trans (b2_arg5 m ρ c)
theorem b3_arg6 : W3 m ρ c (Proc.devRef .tc main_arg6) = (m ((c : Thread nD τ).loc main_arg6)) := (HostSide.third_arg6 (W2 m ρ c)).trans (b2_arg6 m ρ c)

/-! ## The first launch: the product of the joined features and the first weight -/

theorem b4_product : W4 m ρ c (Proc.devRef .tc main_v31) = Cert.ReferenceIdeal.ReadP.val_main_v31 (F := Ideal) (m ((c : Thread nD τ).loc main_arg0)) (m ((c : Thread nD τ).loc main_arg2)) (m ((c : Thread nD τ).loc main_arg3)) := by
  refine (W4_arr m ρ c 2).trans ?_
  rw [Project1.final (V3 m ρ) c]
  show Spec.rowDot (W3 m ρ c (Proc.devRef .tc main_v30)) (W3 m ρ c (Proc.devRef .tc main_arg3)) = _
  rw [b3_features, b3_arg3]
  exact Cert.ReferenceIdeal.Stages.product1 _ _ _
theorem b4_sources : W4 m ρ c (Proc.devRef .tc main_v5) = Cert.ReferenceIdeal.ReadP.val_main_v5 (F := Ideal) (m ((c : Thread nD τ).loc main_arg1)) := (W4_of_ne m ρ c main_v5 (by decide)).trans (b3_sources m ρ c)
theorem b4_targets : W4 m ρ c (Proc.devRef .tc main_v6) = Cert.ReferenceIdeal.ReadP.val_main_v6 (F := Ideal) (m ((c : Thread nD τ).loc main_arg1)) := (W4_of_ne m ρ c main_v6 (by decide)).trans (b3_targets m ρ c)
theorem b4_weights : W4 m ρ c (Proc.devRef .tc main_v29) = Cert.ReferenceIdeal.ReadP.val_main_v29 (F := Ideal) (m ((c : Thread nD τ).loc main_arg1)) := (W4_of_ne m ρ c main_v29 (by decide)).trans (b3_weights m ρ c)
theorem b4_arg4 : W4 m ρ c (Proc.devRef .tc main_arg4) = (m ((c : Thread nD τ).loc main_arg4)) := (W4_of_ne m ρ c main_arg4 (by decide)).trans (b3_arg4 m ρ c)
theorem b4_arg5 : W4 m ρ c (Proc.devRef .tc main_arg5) = (m ((c : Thread nD τ).loc main_arg5)) := (W4_of_ne m ρ c main_arg5 (by decide)).trans (b3_arg5 m ρ c)
theorem b4_arg6 : W4 m ρ c (Proc.devRef .tc main_arg6) = (m ((c : Thread nD τ).loc main_arg6)) := (W4_of_ne m ρ c main_arg6 (by decide)).trans (b3_arg6 m ρ c)

/-! ## The stretch before the second launch -/

theorem b5_sum : W5 m ρ c (Proc.devRef .tc main_v44) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) := by
  refine (HostSide.fourth_sum (W4 m ρ c) (m ((c : Thread nD τ).loc main_arg1)) (b4_sources m ρ c) (b4_targets m ρ c) (b4_weights m ρ c)).trans ?_
  rw [b4_product, ← Cert.ReferenceIdeal.Chains.stage_sum128]
theorem b5_bias : W5 m ρ c (Proc.devRef .tc main_v45) = shapeCast S1x128 (m ((c : Thread nD τ).loc main_arg4)) shapeCasts_S128_S1x128 :=
  (HostSide.fourth_bias (W4 m ρ c)).trans (by rw [b4_arg4])
theorem b5_sources : W5 m ρ c (Proc.devRef .tc main_v5) = Cert.ReferenceIdeal.ReadP.val_main_v5 (F := Ideal) (m ((c : Thread nD τ).loc main_arg1)) := (HostSide.fourth_sources (W4 m ρ c)).trans (b4_sources m ρ c)
theorem b5_targets : W5 m ρ c (Proc.devRef .tc main_v6) = Cert.ReferenceIdeal.ReadP.val_main_v6 (F := Ideal) (m ((c : Thread nD τ).loc main_arg1)) := (HostSide.fourth_targets (W4 m ρ c)).trans (b4_targets m ρ c)
theorem b5_weights : W5 m ρ c (Proc.devRef .tc main_v29) = Cert.ReferenceIdeal.ReadP.val_main_v29 (F := Ideal) (m ((c : Thread nD τ).loc main_arg1)) := (HostSide.fourth_weights (W4 m ρ c)).trans (b4_weights m ρ c)
theorem b5_arg5 : W5 m ρ c (Proc.devRef .tc main_arg5) = (m ((c : Thread nD τ).loc main_arg5)) := (HostSide.fourth_arg5 (W4 m ρ c)).trans (b4_arg5 m ρ c)
theorem b5_arg6 : W5 m ρ c (Proc.devRef .tc main_arg6) = (m ((c : Thread nD τ).loc main_arg6)) := (HostSide.fourth_arg6 (W4 m ρ c)).trans (b4_arg6 m ρ c)

/-! ## The second launch: the bias row added, the maximum with zero -/

theorem b6_hidden : W6 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ?_
  rw [BiasMax.final (V5 m ρ) c]
  show Spec.addRowMax (Ideal.ofBits .f32 0x00000000#32) (W5 m ρ c (Proc.devRef .tc main_v44)) (W5 m ρ c (Proc.devRef .tc main_v45)) = _
  rw [b5_sum, b5_bias]
  exact Cert.ReferenceIdeal.Stages.rectified _ _ _ _ _ _
theorem b6_sources : W6 m ρ c (Proc.devRef .tc main_v5) = Cert.ReferenceIdeal.ReadP.val_main_v5 (F := Ideal) (m ((c : Thread nD τ).loc main_arg1)) := (W6_of_ne m ρ c main_v5 (by decide)).trans (b5_sources m ρ c)
theorem b6_targets : W6 m ρ c (Proc.devRef .tc main_v6) = Cert.ReferenceIdeal.ReadP.val_main_v6 (F := Ideal) (m ((c : Thread nD τ).loc main_arg1)) := (W6_of_ne m ρ c main_v6 (by decide)).trans (b5_targets m ρ c)
theorem b6_weights : W6 m ρ c (Proc.devRef .tc main_v29) = Cert.ReferenceIdeal.ReadP.val_main_v29 (F := Ideal) (m ((c : Thread nD τ).loc main_arg1)) := (W6_of_ne m ρ c main_v29 (by decide)).trans (b5_weights m ρ c)
theorem b6_arg5 : W6 m ρ c (Proc.devRef .tc main_arg5) = (m ((c : Thread nD τ).loc main_arg5)) := (W6_of_ne m ρ c main_arg5 (by decide)).trans (b5_arg5 m ρ c)
theorem b6_arg6 : W6 m ρ c (Proc.devRef .tc main_arg6) = (m ((c : Thread nD τ).loc main_arg6)) := (W6_of_ne m ρ c main_arg6 (by decide)).trans (b5_arg6 m ρ c)

/-! ## The third launch: the product of the hidden features and the second weight -/

theorem b7_product : W7 m ρ c (Proc.devRef .tc main_v47) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  rw [Project2.final (V6 m ρ) c]
  show Spec.rowDot (W6 m ρ c (Proc.devRef .tc main_v46)) (W6 m ρ c (Proc.devRef .tc main_arg5)) = _
  rw [b6_hidden, b6_arg5]
  exact Cert.ReferenceIdeal.Stages.product2 _ _ _ _ _ _
theorem b7_sources : W7 m ρ c (Proc.devRef .tc main_v5) = Cert.ReferenceIdeal.ReadP.val_main_v5 (F := Ideal) (m ((c : Thread nD τ).loc main_arg1)) := (W7_of_ne m ρ c main_v5 (by decide)).trans (b6_sources m ρ c)
theorem b7_targets : W7 m ρ c (Proc.devRef .tc main_v6) = Cert.ReferenceIdeal.ReadP.val_main_v6 (F := Ideal) (m ((c : Thread nD τ).loc main_arg1)) := (W7_of_ne m ρ c main_v6 (by decide)).trans (b6_targets m ρ c)
theorem b7_weights : W7 m ρ c (Proc.devRef .tc main_v29) = Cert.ReferenceIdeal.ReadP.val_main_v29 (F := Ideal) (m ((c : Thread nD τ).loc main_arg1)) := (W7_of_ne m ρ c main_v29 (by decide)).trans (b6_weights m ρ c)
theorem b7_arg6 : W7 m ρ c (Proc.devRef .tc main_arg6) = (m ((c : Thread nD τ).loc main_arg6)) := (W7_of_ne m ρ c main_arg6 (by decide)).trans (b6_arg6 m ρ c)

/-! ## The stretch before the last launch -/

theorem b8_sum : W8 m ρ c (Proc.devRef .tc main_v60) = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (HostSide.fifth_sum (W7 m ρ c) (m ((c : Thread nD τ).loc main_arg1)) (b7_sources m ρ c) (b7_targets m ρ c) (b7_weights m ρ c)).trans ?_
  rw [b7_product, ← Cert.ReferenceIdeal.Chains.stage_sum3]
theorem b8_bias : W8 m ρ c (Proc.devRef .tc main_v61) = shapeCast S1x3 (m ((c : Thread nD τ).loc main_arg6)) shapeCasts_S3_S1x3 :=
  (HostSide.fifth_bias (W7 m ρ c)).trans (by rw [b7_arg6])

/-! ## The last launch: the bias row added -/

/-- The result buffer at the last boundary is the reference's last stage of the launch arguments. -/
theorem result : W9 m ρ c (Proc.devRef .tc main_v62)
    = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ?_
  rw [Bias.final (V8 m ρ) c]
  show Spec.addRow (W8 m ρ c (Proc.devRef .tc main_v60)) (W8 m ρ c (Proc.devRef .tc main_v61)) = _
  rw [b8_sum, b8_bias]
  exact Cert.ReferenceIdeal.Stages.biased _ _ _ _ _ _ _ _

end Cert.KernelIdeal.Walk

end
-- ==== Proof.lean ====
/-
  Two layers of a graph convolution: each layer projects the node features by a weight matrix, sends every node's
  projected row along its outgoing edges (and to itself) scaled by the symmetric normalisation, sums the messages at
  their targets, and adds a bias; the first layer is followed by the rectifier.

  The kernel program computes the two projections and the two bias steps in launches over twenty tiles of 5000 rows,
  and the edge bookkeeping and the two neighbourhood sums by the same host operations as the reference. Over the
  extended reals a tile of the product is the same sum over the shared axis as the whole product's rows (the change of
  float format before the multiplication is the identity there and the accumulator starts at zero), and the bias row
  added tile by tile is the bias broadcast over the whole array. So the kernel program's result is, stage by stage, the
  reference's (Proof/Walk.lean over Proof/HostSide.lean, the four launches' modules, Proof/Stages.lean and
  Proof/Chains.lean), and both programs run without a fault and leave their arguments as launched.
-/
import proofs.«134841_j61306363183554_1_alg».proof.Defs
import proofs.«134841_j61306363183554_1_alg».proof.Proof.Gen.Kernel
import proofs.«134841_j61306363183554_1_alg».proof.Proof.Gen.Kernel.Frame
import proofs.«134841_j61306363183554_1_alg».proof.Proof.Gen.KernelIdeal
import proofs.«134841_j61306363183554_1_alg».proof.Proof.Gen.KernelIdeal.Frame
import proofs.«134841_j61306363183554_1_alg».proof.Proof.Gen.ReferenceIdeal
import proofs.«134841_j61306363183554_1_alg».proof.Proof.Gen.Pre_finite_inputs
import proofs.«134841_j61306363183554_1_alg».proof.Proof.ResultRun
import proofs.«134841_j61306363183554_1_alg».proof.Proof.Walk
import proofs.«134841_j61306363183554_1_alg».proof.Proof.RefRun
import proofs.«134841_j61306363183554_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result at the reference's last stage of the launch arguments: the kernel program by the
    walk through its boundaries, the reference by its run, the arguments agreeing. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Walk.result m ρ c), (h c).2⟩) (Cert.KernelIdeal.ResultRun.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v65_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
